-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S14336x4096 : Shape := ⟨2, ![14336, 4096]⟩
abbrev S4096x14336 : Shape := ⟨2, ![4096, 14336]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  main_v18

def fn {F : FTy → Type} [FloatOps F] (main_arg0 : FVec F S2x2048x4096 .f32) (main_arg1 : FVec F S14336x4096 .f32) (main_arg2 : FVec F S14336x4096 .f32) (main_arg3 : FVec F S4096x14336 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4096 .f32 := Host.absf main_arg2
  let main_cst_2 : FVec F S_ .f32 := constant S_ .f32 0x7F800000#32
  let main_v10 : FVec F S14336x4096 .f32 := broadcastInDim S14336x4096 ![] bcast_S_S14336x4096 main_cst_2
  let main_v11 : IVec S14336x4096 1 := cmpf .olt main_v9 main_v10
  let main_c_3 : IVec S_ 1 := constantI S_ 1 1#1
  let main_v12 : IVec S_ 1 := (fun x v => Host.reduce IntOp.andi x v reducesTo_S14336x4096_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_v13 main_v16
-- ==== Kernel.lean ====
abbrev S2x2048x4096 : Shape := ⟨3, ![2, 2048, 4096]⟩
abbrev S14336x4096 : Shape := ⟨2, ![14336, 4096]⟩
abbrev S4096x14336 : Shape := ⟨2, ![4096, 14336]⟩
abbrev S4096x4096 : Shape := ⟨2, ![4096, 4096]⟩
abbrev S256x4096 : Shape := ⟨2, ![256, 4096]⟩
abbrev S512x4096 : Shape := ⟨2, ![512, 4096]⟩
abbrev S4096x512 : Shape := ⟨2, ![4096, 512]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S4096x4096, .f32⟩
  | .hbm, ⟨5, _⟩ => ⟨S4096x4096, .bf16⟩
  | .hbm, ⟨6, _⟩ => ⟨S14336x4096, .bf16⟩
  | .hbm, ⟨7, _⟩ => ⟨S14336x4096, .bf16⟩
  | .hbm, ⟨8, _⟩ => ⟨S4096x14336, .bf16⟩
  | .hbm, ⟨9, _⟩ => ⟨S4096x4096, .f32⟩
  | .hbm, ⟨10, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S4096x512, .bf16⟩
  | .local _ .vmem, ⟨7, _⟩ => ⟨S4096x512, .bf16⟩
  | .local _ .vmem, ⟨8, _⟩ => ⟨S256x4096, .f32⟩
  | .local _ .vmem, ⟨9, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 28], ![false, false]⟩

def k0_cond2 (i : grid0.Coords) : BitVec 1 :=
  let arg1 : BitVec 32 := BitVec.ofNat 32 (i 1).val
  let c27_i32 : BitVec 32 := 27#32
  let v23 : BitVec 1 := Scalar.cmpi .eq arg1 c27_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S4096x4096_S2x2048x4096 : S4096x4096.ShapeCasts S2x2048x4096
  dot_S256x4096_S512x4096_S256x512_1_1_0_0_n_n_wf : DotDims.WF S256x4096 S512x4096 S256x512 [1] [1] [0] [0] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .bf16 = 32 ∨ (Rect.block (s := S14336x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S14336x4096.size a
  hwx0_2 : ∀ i : grid0.Coords, EltTy.bits .bf16 = 32 ∨ (Rect.block (s := S14336x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x14336.size a
  hwx0_3 : ∀ i : grid0.Coords, EltTy.bits .bf16 = 32 ∨ (Rect.block (s := S4096x14336) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S14336x4096 : Shape := ⟨2, ![14336, 4096]⟩
abbrev S4096x14336 : Shape := ⟨2, ![4096, 14336]⟩
abbrev S2x2048x14336 : Shape := ⟨3, ![2, 2048, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S14336x4096, .f32⟩
  | .hbm, ⟨2, _⟩ => ⟨S14336x4096, .f32⟩
  | .hbm, ⟨3, _⟩ => ⟨S4096x14336, .f32⟩
  | .hbm, ⟨4, _⟩ => ⟨S2x2048x14336, .f32⟩
  | .hbm, ⟨5, _⟩ => ⟨S2x2048x14336, .f32⟩
  | .hbm, ⟨6, _⟩ => ⟨S2x2048x14336, .f32⟩
  | .hbm, ⟨7, _⟩ => ⟨S2x2048x14336, .f32⟩
  | .hbm, ⟨8, _⟩ => ⟨S_, .f32⟩
  | .hbm, ⟨9, _⟩ => ⟨S2x2048x14336, .f32⟩
  | .hbm, ⟨10, _⟩ => ⟨S2x2048x14336, .f32⟩
  | .hbm, ⟨11, _⟩ => ⟨S_, .f32⟩
  | .hbm, ⟨12, _⟩ => ⟨S2x2048x14336, .f32⟩
  | .hbm, ⟨13, _⟩ => ⟨S2x2048x14336, .f32⟩
  | .hbm, ⟨14, _⟩ => ⟨S2x2048x14336, .f32⟩
  | .hbm, ⟨15, _⟩ => ⟨S2x2048x14336, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x14336 : S_.BroadcastsInDim S2x2048x14336 (![] : Fin 0 → Fin S2x2048x14336.rank)
  dot_S2x2048x4096_S14336x4096_S2x2048x14336_2_1_01_0_n_n_wf : DotDims.WF S2x2048x4096 S14336x4096 S2x2048x14336 [2] [1] [0, 1] [0] [] []
  dot_S2x2048x14336_S4096x14336_S2x2048x4096_2_1_01_0_n_n_wf : DotDims.WF S2x2048x14336 S4096x14336 S2x2048x4096 [2] [1] [0, 1] [0] [] []

variable [Facts₀]

def dot_S2x2048x4096_S14336x4096_S2x2048x14336_2_1_01_0_n_n : DotDims S2x2048x4096 S14336x4096 S2x2048x14336 where
  lhsContracting := [2]
  rhsContracting := [1]
  lhsNonContracting := [0, 1]
  rhsNonContracting := [0]
  lhsBatch := []
  rhsBatch := []
  wf := dot_S2x2048x4096_S14336x4096_S2x2048x14336_2_1_01_0_n_n_wf
def dot_S2x2048x14336_S4096x14336_S2x2048x4096_2_1_01_0_n_n : DotDims S2x2048x14336 S4096x14336 S2x2048x4096 where
  lhsContracting := [2]
  rhsContracting := [1]
  lhsNonContracting := [0, 1]
  rhsNonContracting := [0]
  lhsBatch := []
  rhsBatch := []
  wf := dot_S2x2048x14336_S4096x14336_S2x2048x4096_2_1_01_0_n_n_wf

class Facts : Prop extends Facts₀ where

variable [Facts]
-- ==== Proof.CaseValues.lean ====
/-
  What one grid point leaves behind, case by case, as values.

  The body keeps a 256 × 4096 accumulator between grid points.  At a point whose second coordinate is 0 it first
  stores the zero block and then stores "what it reads back, plus this point's product"; at every other point it stores
  "what the point before left, plus this point's product"; at a point whose second coordinate is 27 it afterwards
  copies the accumulator into the output block.  Each store covers the whole buffer, so what the buffer holds after the
  point is the last store's value, and a load that follows a store reads that store's value.  Stated for every float
  instance.
-/
import proofs.«103071_j58360015618262_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem zero_offsets : (![0, 0] : Fin 2 → Nat) = fun _ => 0 := funext fun a => by fin_cases a <;> rfl

/-- Second coordinate 0: the accumulator ends at the point's product added to the zero block it has just stored. -/
theorem acc_first (c : Dev nD) (i : grid0.Coords) (a2 : Memref sig .tc .vmem S256x4096 .bf16) (h2 : a2.IsWhole)
    (a3 : Memref sig .tc .vmem S512x4096 .bf16) (h3 : a3.IsWhole) (a4 : Memref sig .tc .vmem S512x4096 .bf16) (h4 : a4.IsWhole)
    (a5 : Memref sig .tc .vmem S4096x512 .bf16) (h5 : a5.IsWhole) (a6 : Memref sig .tc .vmem S256x4096 .f32) (h6 : a6.IsWhole)
    (a7 : Memref sig .tc .vmem S256x4096 .f32) (h7 : a7.IsWhole) (hc0 : cond0_0 i) (hc1 : ¬cond0_1 i)
    (x0 : Vec F S256x4096 .bf16) (x1 : Vec F S512x4096 .bf16) (x2 : Vec F S512x4096 .bf16) (x3 : Vec F S4096x512 .bf16) :
    sout0_A_0 c i a2 h2 a3 h3 a4 h4 a5 h5 a6 h6 a7 h7 hc0 hc1 x0 x1 x2 x3 = k0_pay2 x0 x1 x2 x3 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x4096) zero_offsets, View.readCov_unit_zero (S := S256x4096) _ zero_offsets]
  simp only [View.readAt_eq_ld, h2.read_unread, h3.read_unread, h4.read_unread, h5.read_unread, h6.read_unread, h7.read_unread,
    View.ld_unit_zero (S := S256x4096) zero_offsets, View.ld_unit_zero (S := S512x4096) zero_offsets,
    View.ld_unit_zero (S := S4096x512) zero_offsets]

/-- Second coordinate strictly between 0 and 27: the accumulator ends at the point's product added to what the point
    before left. -/
theorem acc_middle (c : Dev nD) (i : grid0.Coords) (a2 : Memref sig .tc .vmem S256x4096 .bf16) (h2 : a2.IsWhole)
    (a3 : Memref sig .tc .vmem S512x4096 .bf16) (h3 : a3.IsWhole) (a4 : Memref sig .tc .vmem S512x4096 .bf16) (h4 : a4.IsWhole)
    (a5 : Memref sig .tc .vmem S4096x512 .bf16) (h5 : a5.IsWhole) (a6 : Memref sig .tc .vmem S256x4096 .f32) (h6 : a6.IsWhole)
    (a7 : Memref sig .tc .vmem S256x4096 .f32) (h7 : a7.IsWhole) (hc0 : ¬cond0_0 i) (hc1 : ¬cond0_1 i)
    (x0 : Vec F S256x4096 .bf16) (x1 : Vec F S512x4096 .bf16) (x2 : Vec F S512x4096 .bf16) (x3 : Vec F S4096x512 .bf16) (xs0 : Vec F S256x4096 .f32) :
    sout0_B_0 c i a2 h2 a3 h3 a4 h4 a5 h5 a6 h6 a7 h7 hc0 hc1 x0 x1 x2 x3 xs0 = k0_pay2 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero zero_offsets]
  simp only [View.readAt_eq_ld, h2.read_unread, h3.read_unread, h4.read_unread, h5.read_unread, h6.read_unread, h7.read_unread,
    View.ld_unit_zero (S := S256x4096) zero_offsets, View.ld_unit_zero (S := S512x4096) zero_offsets,
    View.ld_unit_zero (S := S4096x512) zero_offsets]

/-- Second coordinate 27: the accumulator ends the same way, -/
theorem acc_last (c : Dev nD) (i : grid0.Coords) (a2 : Memref sig .tc .vmem S256x4096 .bf16) (h2 : a2.IsWhole)
    (a3 : Memref sig .tc .vmem S512x4096 .bf16) (h3 : a3.IsWhole) (a4 : Memref sig .tc .vmem S512x4096 .bf16) (h4 : a4.IsWhole)
    (a5 : Memref sig .tc .vmem S4096x512 .bf16) (h5 : a5.IsWhole) (a6 : Memref sig .tc .vmem S256x4096 .f32) (h6 : a6.IsWhole)
    (a7 : Memref sig .tc .vmem S256x4096 .f32) (h7 : a7.IsWhole) (hc0 : ¬cond0_0 i) (hc1 : cond0_1 i)
    (x0 : Vec F S256x4096 .bf16) (x1 : Vec F S512x4096 .bf16) (x2 : Vec F S512x4096 .bf16) (x3 : Vec F S4096x512 .bf16) (xs0 : Vec F S256x4096 .f32) :
    sout0_C_0 c i a2 h2 a3 h3 a4 h4 a5 h5 a6 h6 a7 h7 hc0 hc1 x0 x1 x2 x3 xs0 = k0_pay2 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero zero_offsets]
  simp only [View.readAt_eq_ld, h2.read_unread, h3.read_unread, h4.read_unread, h5.read_unread, h6.read_unread, h7.read_unread,
    View.ld_unit_zero (S := S256x4096) zero_offsets, View.ld_unit_zero (S := S512x4096) zero_offsets,
    View.ld_unit_zero (S := S4096x512) zero_offsets]

/-- and the output block receives a copy of it. -/
theorem out_last (c : Dev nD) (i : grid0.Coords) (a2 : Memref sig .tc .vmem S256x4096 .bf16) (h2 : a2.IsWhole)
    (a3 : Memref sig .tc .vmem S512x4096 .bf16) (h3 : a3.IsWhole) (a4 : Memref sig .tc .vmem S512x4096 .bf16) (h4 : a4.IsWhole)
    (a5 : Memref sig .tc .vmem S4096x512 .bf16) (h5 : a5.IsWhole) (a6 : Memref sig .tc .vmem S256x4096 .f32) (h6 : a6.IsWhole)
    (a7 : Memref sig .tc .vmem S256x4096 .f32) (h7 : a7.IsWhole) (hc0 : ¬cond0_0 i) (hc1 : cond0_1 i)
    (x0 : Vec F S256x4096 .bf16) (x1 : Vec F S512x4096 .bf16) (x2 : Vec F S512x4096 .bf16) (x3 : Vec F S4096x512 .bf16) (xs0 : Vec F S256x4096 .f32) :
    out0_C_4 c i a2 h2 a3 h3 a4 h4 a5 h5 a6 h6 a7 h7 hc0 hc1 x0 x1 x2 x3 xs0 = k0_pay2 x0 x1 x2 x3 xs0 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero zero_offsets]
  simp only [View.readCov_unit_zero (S := S256x4096) _ zero_offsets, View.readAt_eq_ld, h2.read_unread, h3.read_unread, h4.read_unread, h5.read_unread, h6.read_unread, h7.read_unread,
    View.ld_unit_zero (S := S256x4096) zero_offsets, View.ld_unit_zero (S := S512x4096) zero_offsets,
    View.ld_unit_zero (S := S4096x512) zero_offsets]

end Cert.KernelIdeal.CaseValues

end
-- ==== Proof.PointProduct.lean ====
/-
  One grid point's stored value, read at an entry, over the extended reals.

  A point holds a 256 × 4096 block `x0` of the rows, 512 × 4096 blocks `x1`, `x2` of the two up-projections' weights,
  a 4096 × 512 block `x3` of the down-projection's weights, and the accumulator `acc`.  Each of its three matrix
  products starts from the zero block and contracts the operands' second coordinates, so at an entry it is the plain sum
  of products over that coordinate; the change to the 16-bit format between them is the identity here.  Hence entry
  `(p, q)` of what the point stores is
      acc p q + Σ_l ((g p l · σ(g p l)) · u p l) · x3 q l,     g p l = Σ_k x0 p k · x1 l k,   u p l = Σ_k x0 p k · x2 l k.
-/
import proofs.«103071_j58360015618262_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.PointProduct

open Cert.KernelIdeal Cert.KernelIdeal.Gen

/-! ## The operand indices of the two products' dimension records, axis by axis -/

theorem up_l0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem up_l1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem up_r0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem up_r1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

theorem down_l0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem down_l1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem down_r0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem down_r1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-! ## The products at an entry -/

/-- A row block against a weight block, contracted over the 4096 shared coordinates, from the zero block. -/
theorem up_apply (a : FVec Ideal S256x4096 .bf16) (b : FVec Ideal S512x4096 .bf16) (p : Fin 256) (l : Fin 512) :
    matmul dot_S256x4096_S512x4096_S256x512_1_1_0_0_n_n none a b (constant (F := Ideal) S256x512 .f32 0x00000000#32) (ix2 p l)
      = ∑ k : Fin 4096, a (ix2 p k) * b (ix2 l k) := by
  simp only [matmul]
  rw [Ideal.matmul_constant_zero_apply, ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p l) ((contrEquiv1 dot_S256x4096_S512x4096_S256x512_1_1_0_0_n_n 4096 rfl rfl).symm k) = ix2 p k := funext fun a => Fin.ext (by
    match a with
    | ⟨0, _⟩ => exact up_l0 _ _
    | ⟨1, _⟩ => exact (up_l1 _ _).trans hk)
  have er : dot_S256x4096_S512x4096_S256x512_1_1_0_0_n_n.rhsIdx (ix2 p l) ((contrEquiv1 dot_S256x4096_S512x4096_S256x512_1_1_0_0_n_n 4096 rfl rfl).symm k) = ix2 l k := funext fun a => Fin.ext (by
    match a with
    | ⟨0, _⟩ => exact up_r0 _ _
    | ⟨1, _⟩ => exact (up_r1 _ _).trans hk)
  rw [el, er]

/-- The gated block against the down-projection's block, contracted over the block's 512 hidden coordinates, from the zero block. -/
theorem down_apply (a : FVec Ideal S256x512 .bf16) (b : FVec Ideal S4096x512 .bf16) (p : Fin 256) (l : Fin 4096) :
    matmul dot_S256x512_S4096x512_S256x4096_1_1_0_0_n_n none a b (constant (F := Ideal) S256x4096 .f32 0x00000000#32) (ix2 p l)
      = ∑ k : Fin 512, a (ix2 p k) * b (ix2 l k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p l) ((contrEquiv1 dot_S256x512_S4096x512_S256x4096_1_1_0_0_n_n 512 rfl rfl).symm k) = ix2 p k := funext fun a => Fin.ext (by
    match a with
    | ⟨0, _⟩ => exact down_l0 _ _
    | ⟨1, _⟩ => exact (down_l1 _ _).trans hk)
  have er : dot_S256x512_S4096x512_S256x4096_1_1_0_0_n_n.rhsIdx (ix2 p l) ((contrEquiv1 dot_S256x512_S4096x512_S256x4096_1_1_0_0_n_n 512 rfl rfl).symm k) = ix2 l k := funext fun a => Fin.ext (by
    match a with
    | ⟨0, _⟩ => exact down_r0 _ _
    | ⟨1, _⟩ => exact (down_r1 _ _).trans hk)
  rw [el, er]

/-- Row `p` of the row block against row `l` of a weight block. -/
def blockProj (x0 : Vec Ideal S256x4096 .bf16) (w : Vec Ideal S512x4096 .bf16) (p : Fin 256) (l : Fin 512) : EReal :=
  ∑ k : Fin 4096, x0 (ix2 p k) * w (ix2 l k)

/-- What the point adds to entry `(p, q)` of the accumulator. -/
def blockTerm (x0 : Vec Ideal S256x4096 .bf16) (x1 x2 : Vec Ideal S512x4096 .bf16) (x3 : Vec Ideal S4096x512 .bf16)
    (p : Fin 256) (q : Fin 4096) : EReal :=
  ∑ l : Fin 512, ((blockProj x0 x1 p l * Ideal.logistic (blockProj x0 x1 p l)) * blockProj x0 x2 p l) * x3 (ix2 q l)

/-- The stored value at an entry: the accumulator's entry plus the point's term. -/
theorem stored_apply (x0 : Vec Ideal S256x4096 .bf16) (x1 x2 : Vec Ideal S512x4096 .bf16) (x3 : Vec Ideal S4096x512 .bf16)
    (acc : Vec Ideal S256x4096 .f32) (p : Fin 256) (q : Fin 4096) :
    k0_pay2 x0 x1 x2 x3 acc (ix2 p q) = acc (ix2 p q) + blockTerm x0 x1 x2 x3 p q := by
  unfold k0_pay2
  simp only [shapeCast_self]
  refine congrArg (acc (ix2 p q) + ·) ?_
  refine (down_apply _ x3 p q).trans ?_
  unfold blockTerm blockProj
  refine Finset.sum_congr rfl fun l _ => ?_
  refine congrArg (· * x3 (ix2 q l)) ?_
  show (matmul dot_S256x4096_S512x4096_S256x512_1_1_0_0_n_n none x0 x1 (constant (F := Ideal) S256x512 .f32 0x00000000#32) (ix2 p l)
        * Ideal.logistic (matmul dot_S256x4096_S512x4096_S256x512_1_1_0_0_n_n none x0 x1 (constant (F := Ideal) S256x512 .f32 0x00000000#32) (ix2 p l)))
      * matmul dot_S256x4096_S512x4096_S256x512_1_1_0_0_n_n none x0 x2 (constant (F := Ideal) S256x512 .f32 0x00000000#32) (ix2 p l) = _
  rw [up_apply x0 x1 p l, up_apply x0 x2 p l]

/-- The zero block at an entry. -/
theorem zero_apply (j : S256x4096.Idx) : (k0_pay1 (F := Ideal)) j = 0 := by
  unfold k0_pay1
  simp only [shapeCast_self]
  exact Ideal.ofBits_zero_f32

end Cert.KernelIdeal.PointProduct

end
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.GatedSum.lean ====
/-
  The gated projection as one function of its four arrays, over the extended reals.

  With `x` of extent 2 × 2048 × 4096 read as 4096 rows `r = 2048·b + s`, and weights `wg`, `wu` (14336 × 4096) and
  `wd` (4096 × 14336):
      g r i = Σ_k x r k · wg i k          u r i = Σ_k x r k · wu i k          (k over the 4096 shared coordinates)
      a r i = (g r i · σ(g r i)) · u r i                                       (σ the logistic function 1 / (1 + e^(-g)))
      out r h = Σ_i a r i · wd h i                                             (i over the 14336 hidden coordinates)
  The hidden coordinates split as 28 consecutive blocks of 512, `i = 512·j + l`; `out r h` is the sum of the 28 block
  sums, and the partial sums over the first `n` blocks obey the one-step recurrence an accumulator follows.  Only
  commutativity and associativity of the addition are used, so nothing here asks the entries to be finite.
-/
import Idealize.ShloMosaic.Lib.ValueIdx
import Idealize.ShloMosaic.PureOps.Ideal.Laws
import proofs.«103071_j58360015618262_1_alg».proof.Proof.LibFinSum

noncomputable section

open Idealize.ShloMosaic Idealize.ShloMosaic.ValueIdx

namespace Cert.GatedSum

/-- The three array shapes. -/
abbrev Sx : Shape := ⟨3, ![2, 2048, 4096]⟩
abbrev Sw : Shape := ⟨2, ![14336, 4096]⟩
abbrev Sd : Shape := ⟨2, ![4096, 14336]⟩

variable (x : Sx.Idx → EReal) (wg wu : Sw.Idx → EReal) (wd : Sd.Idx → EReal)

/-- Entry `k` of row `r = 2048·b + s` of `x`. -/
def xRow (r k : Fin 4096) : EReal :=
  x (ix3 (⟨r.val / 2048, by have := r.isLt; omega⟩ : Fin 2) (⟨r.val % 2048, Nat.mod_lt _ (by norm_num)⟩ : Fin 2048) k)

/-- Row `r` of `x` against row `i` of a weight array. -/
def proj (w : Sw.Idx → EReal) (r : Fin 4096) (i : Fin 14336) : EReal :=
  ∑ k : Fin 4096, xRow x r k * w (ix2 i k)

/-- The gated hidden activation `(g · σ(g)) · u`. -/
def gated (r : Fin 4096) (i : Fin 14336) : EReal :=
  (proj x wg r i * Ideal.logistic (proj x wg r i)) * proj x wu r i

/-- Entry `(r, h)` of the result. -/
def rowOut (r h : Fin 4096) : EReal :=
  ∑ i : Fin 14336, gated x wg wu r i * wd (ix2 h i)

/-- The result as an array of `x`'s shape: entry `(b, s, h)` is `rowOut (2048·b + s) h`. -/
def out : Sx.Idx → EReal := fun j =>
  rowOut x wg wu wd
    ⟨2048 * (j 0).val + (j 1).val, by
      have h0 : (j 0).val < 2 := (j 0).isLt
      have h1 : (j 1).val < 2048 := (j 1).isLt
      omega⟩
    ⟨(j 2).val, (j 2).isLt⟩

/-- Hidden coordinate `l` of block `j`. -/
abbrev hid (j : Fin 28) (l : Fin 512) : Fin 14336 :=
  ⟨j.val * 512 + l.val, by have := j.isLt; have := l.isLt; omega⟩

/-- The part of `rowOut r h` that block `j` of the hidden coordinates contributes. -/
def blockSum (r h : Fin 4096) (j : Fin 28) : EReal :=
  ∑ l : Fin 512, gated x wg wu r (hid j l) * wd (ix2 h (hid j l))

/-- The result entry is the sum of its 28 block sums. -/
theorem rowOut_eq_blocks (r h : Fin 4096) : rowOut x wg wu wd r h = ∑ j : Fin 28, blockSum x wg wu wd r h j := by
  unfold rowOut blockSum
  exact Cert.LibFinSum.sum_fin_of_eq_mul 28 512 (by norm_num) (fun i => gated x wg wu r i * wd (ix2 h i))

/-- The block sums indexed by a natural number (zero past the last block). -/
def blockSumN (r h : Fin 4096) (j : ℕ) : EReal :=
  if hj : j < 28 then blockSum x wg wu wd r h ⟨j, hj⟩ else 0

/-- The sum of the first `n` block sums. -/
def partialSum (r h : Fin 4096) (n : ℕ) : EReal :=
  ∑ j ∈ Finset.range n, blockSumN x wg wu wd r h j

theorem partialSum_one (r h : Fin 4096) : partialSum x wg wu wd r h 1 = blockSumN x wg wu wd r h 0 :=
  Finset.sum_range_one _

theorem partialSum_succ (r h : Fin 4096) (n : ℕ) :
    partialSum x wg wu wd r h (n + 1) = partialSum x wg wu wd r h n + blockSumN x wg wu wd r h n :=
  Finset.sum_range_succ _ n

/-- All 28 blocks together give the result entry. -/
theorem partialSum_full (r h : Fin 4096) : partialSum x wg wu wd r h 28 = rowOut x wg wu wd r h := by
  rw [rowOut_eq_blocks]
  unfold partialSum
  rw [Finset.sum_range]
  exact Finset.sum_congr rfl fun j _ => dif_pos j.isLt

end Cert.GatedSum

end
-- ==== Proof.Windows.lean ====
/-
  What the pipeline's windows hold, entry by entry, in terms of the four argument arrays.

  Before the region the host flattens `x` (2 × 2048 × 4096) to 4096 rows, row `r = 2048·b + s`, and changes all four
  arrays to the 16-bit format, which over the extended reals is the identity.  The grid has 16 × 28 points, numbered
  `t = 28·i + j`.  At point `t` the row window holds rows `256·i … 256·i + 255`, the two up-projection windows hold weight
  rows `512·j … 512·j + 511`, and the down-projection window holds columns `512·j … 512·j + 511`.
-/
import proofs.«103071_j58360015618262_1_alg».proof.Proof.Gen.KernelIdeal.Frame
import proofs.«103071_j58360015618262_1_alg».proof.Proof.GatedSum
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Windows

open Cert.KernelIdeal Cert.KernelIdeal.Gen Cert.GatedSum

variable (m : (ℓ : Loc nD τ sig) → Buf (Elt Ideal) ℓ)

/-! ## The four arrays as the region finds them -/

theorem rows_eq (c : Dev nD) : @Eq (S4096x4096.Idx → EReal) (V m c main_v1)
    (truncf (F := Ideal) .bf16 (shapeCast S4096x4096 (m ((c : Thread nD τ).loc main_arg0)) shapeCasts_S2x2048x4096_S4096x4096) bitsLt_bf16_f32) := by
  show StableHlo.after hostOps0 (fun b => m (c, b)) (Proc.devRef .tc main_v1) = _
  after_results <;> rfl

theorem gate_eq (c : Dev nD) : @Eq (S14336x4096.Idx → EReal) (V m c main_v2)
    (truncf (F := Ideal) .bf16 (m ((c : Thread nD τ).loc main_arg1)) bitsLt_bf16_f32) := by
  show StableHlo.after hostOps0 (fun b => m (c, b)) (Proc.devRef .tc main_v2) = _
  after_results <;> rfl

theorem up_eq (c : Dev nD) : @Eq (S14336x4096.Idx → EReal) (V m c main_v3)
    (truncf (F := Ideal) .bf16 (m ((c : Thread nD τ).loc main_arg2)) bitsLt_bf16_f32) := by
  show StableHlo.after hostOps0 (fun b => m (c, b)) (Proc.devRef .tc main_v3) = _
  after_results <;> rfl

theorem down_eq (c : Dev nD) : @Eq (S4096x14336.Idx → EReal) (V m c main_v4)
    (truncf (F := Ideal) .bf16 (m ((c : Thread nD τ).loc main_arg3)) bitsLt_bf16_f32) := by
  show StableHlo.after hostOps0 (fun b => m (c, b)) (Proc.devRef .tc main_v4) = _
  after_results <;> rfl

/-- Entry `(r, k)` of the flattened rows is entry `k` of row `r` of `x`. -/
theorem rows_apply (c : Dev nD) (r k : Fin 4096) :
    (V m c main_v1 : S4096x4096.Idx → EReal) (ix2 r k) = xRow (m ((c : Thread nD τ).loc main_arg0)) r k := by
  rw [rows_eq]
  show shapeCast S4096x4096 (m ((c : Thread nD τ).loc main_arg0)) shapeCasts_S2x2048x4096_S4096x4096 (ix2 r k) = _
  unfold xRow
  refine shapeCast_apply (s := S2x2048x4096) (t := S4096x4096) _ _ _ _ ?_
  change ((⟨3, ![2, 2048, 4096]⟩ : Shape).rowMajor _).val = ((⟨2, ![4096, 4096]⟩ : Shape).rowMajor _).val
  rw [Shape.rowMajor_val_three, Shape.rowMajor_val_two]
  show (r.val / 2048 * 2048 + r.val % 2048) * 4096 + k.val = r.val * 4096 + k.val
  omega

theorem gate_apply (c : Dev nD) (j : S14336x4096.Idx) :
    (V m c main_v2 : S14336x4096.Idx → EReal) j = m ((c : Thread nD τ).loc main_arg1) j := by
  rw [gate_eq]; rfl

theorem up_apply (c : Dev nD) (j : S14336x4096.Idx) :
    (V m c main_v3 : S14336x4096.Idx → EReal) j = m ((c : Thread nD τ).loc main_arg2) j := by
  rw [up_eq]; rfl

theorem down_apply (c : Dev nD) (j : S4096x14336.Idx) :
    (V m c main_v4 : S4096x14336.Idx → EReal) j = m ((c : Thread nD τ).loc main_arg3) j := by
  rw [down_eq]; rfl

/-! ## Which block each window is on, decided over the 448 points -/

theorem rowWindow_index : ∀ t : Fin cfg0.N, win0_0.index t (0 : Fin 2) = t.val / 28 ∧ win0_0.index t (1 : Fin 2) = 0 :=
  (by decide +kernel : ∀ t : Fin grid0.N, win0_0.index t (0 : Fin 2) = t.val / 28 ∧ win0_0.index t (1 : Fin 2) = 0)
theorem gateWindow_index : ∀ t : Fin cfg0.N, win0_1.index t (0 : Fin 2) = t.val % 28 ∧ win0_1.index t (1 : Fin 2) = 0 :=
  (by decide +kernel : ∀ t : Fin grid0.N, win0_1.index t (0 : Fin 2) = t.val % 28 ∧ win0_1.index t (1 : Fin 2) = 0)
theorem upWindow_index : ∀ t : Fin cfg0.N, win0_2.index t (0 : Fin 2) = t.val % 28 ∧ win0_2.index t (1 : Fin 2) = 0 :=
  (by decide +kernel : ∀ t : Fin grid0.N, win0_2.index t (0 : Fin 2) = t.val % 28 ∧ win0_2.index t (1 : Fin 2) = 0)
theorem downWindow_index : ∀ t : Fin cfg0.N, win0_3.index t (0 : Fin 2) = 0 ∧ win0_3.index t (1 : Fin 2) = t.val % 28 :=
  (by decide +kernel : ∀ t : Fin grid0.N, win0_3.index t (0 : Fin 2) = 0 ∧ win0_3.index t (1 : Fin 2) = t.val % 28)
theorem outWindow_index : ∀ t : Fin cfg0.N, win0_4.index t (0 : Fin 2) = t.val / 28 ∧ win0_4.index t (1 : Fin 2) = 0 :=
  (by decide +kernel : ∀ t : Fin grid0.N, win0_4.index t (0 : Fin 2) = t.val / 28 ∧ win0_4.index t (1 : Fin 2) = 0)

theorem point_lt (t : Fin cfg0.N) : t.val < 448 := lt_of_lt_of_eq t.isLt (show cfg0.N = 448 from N_0)

/-- Row `p` of the row block of point `t`, as a row of the flattened `x`. -/
def rowOf (t : Fin cfg0.N) (p : Fin 256) : Fin 4096 :=
  ⟨256 * (t.val / 28) + p.val, by have := point_lt t; have := p.isLt; omega⟩

/-- The block of hidden coordinates point `t` works on. -/
def hidBlock (t : Fin cfg0.N) : Fin 28 := ⟨t.val % 28, Nat.mod_lt _ (by norm_num)⟩

/-! ## The blocks at an entry -/

/-- The four input blocks of point `t`, each at its literal type. -/
abbrev rowBlk (c : Dev nD) (t : Fin cfg0.N) : Vec Ideal S256x4096 .bf16 := iblk m c 0 t
abbrev gateBlk (c : Dev nD) (t : Fin cfg0.N) : Vec Ideal S512x4096 .bf16 := iblk m c 1 t
abbrev upBlk (c : Dev nD) (t : Fin cfg0.N) : Vec Ideal S512x4096 .bf16 := iblk m c 2 t
abbrev downBlk (c : Dev nD) (t : Fin cfg0.N) : Vec Ideal S4096x512 .bf16 := iblk m c 3 t

theorem rowBlock_apply (c : Dev nD) (t : Fin cfg0.N) (p : Fin 256) (k : Fin 4096) :
    rowBlk m c t (ix2 p k) = xRow (m ((c : Thread nD τ).loc main_arg0)) (rowOf t p) k := by
  refine Eq.trans ?_ (rows_apply m c (rowOf t p) k)
  unfold rowBlk iblk
  rw [View.read_apply]
  show V m c main_v1 (((cfg0.win 0).blk t).view.emb (ix2 p k)) = V m c main_v1 (ix2 (rowOf t p) k)
  refine congrArg (V m c main_v1) (funext fun a => Fin.ext ?_)
  match a with
  | ⟨0, _⟩ =>
    show win0_0.index t 0 * 256 + 1 * p.val = 256 * (t.val / 28) + p.val
    rw [(rowWindow_index t).1]; omega
  | ⟨1, _⟩ =>
    show win0_0.index t 1 * 4096 + 1 * k.val = k.val
    rw [(rowWindow_index t).2]; omega

theorem gateBlock_apply (c : Dev nD) (t : Fin cfg0.N) (l : Fin 512) (k : Fin 4096) :
    gateBlk m c t (ix2 l k) = m ((c : Thread nD τ).loc main_arg1) (ix2 (hid (hidBlock t) l) k) := by
  refine Eq.trans ?_ (gate_apply m c (ix2 (hid (hidBlock t) l) k))
  unfold gateBlk iblk
  rw [View.read_apply]
  show V m c main_v2 (((cfg0.win 1).blk t).view.emb (ix2 l k)) = V m c main_v2 (ix2 (hid (hidBlock t) l) k)
  refine congrArg (V m c main_v2) (funext fun a => Fin.ext ?_)
  match a with
  | ⟨0, _⟩ =>
    show win0_1.index t 0 * 512 + 1 * l.val = t.val % 28 * 512 + l.val
    rw [(gateWindow_index t).1]; omega
  | ⟨1, _⟩ =>
    show win0_1.index t 1 * 4096 + 1 * k.val = k.val
    rw [(gateWindow_index t).2]; omega

theorem upBlock_apply (c : Dev nD) (t : Fin cfg0.N) (l : Fin 512) (k : Fin 4096) :
    upBlk m c t (ix2 l k) = m ((c : Thread nD τ).loc main_arg2) (ix2 (hid (hidBlock t) l) k) := by
  refine Eq.trans ?_ (up_apply m c (ix2 (hid (hidBlock t) l) k))
  unfold upBlk iblk
  rw [View.read_apply]
  show V m c main_v3 (((cfg0.win 2).blk t).view.emb (ix2 l k)) = V m c main_v3 (ix2 (hid (hidBlock t) l) k)
  refine congrArg (V m c main_v3) (funext fun a => Fin.ext ?_)
  match a with
  | ⟨0, _⟩ =>
    show win0_2.index t 0 * 512 + 1 * l.val = t.val % 28 * 512 + l.val
    rw [(upWindow_index t).1]; omega
  | ⟨1, _⟩ =>
    show win0_2.index t 1 * 4096 + 1 * k.val = k.val
    rw [(upWindow_index t).2]; omega

theorem downBlock_apply (c : Dev nD) (t : Fin cfg0.N) (q : Fin 4096) (l : Fin 512) :
    downBlk m c t (ix2 q l) = m ((c : Thread nD τ).loc main_arg3) (ix2 q (hid (hidBlock t) l)) := by
  refine Eq.trans ?_ (down_apply m c (ix2 q (hid (hidBlock t) l)))
  unfold downBlk iblk
  rw [View.read_apply]
  show V m c main_v4 (((cfg0.win 3).blk t).view.emb (ix2 q l)) = V m c main_v4 (ix2 q (hid (hidBlock t) l))
  refine congrArg (V m c main_v4) (funext fun a => Fin.ext ?_)
  match a with
  | ⟨0, _⟩ =>
    show win0_3.index t 0 * 4096 + 1 * q.val = q.val
    rw [(downWindow_index t).1]; omega
  | ⟨1, _⟩ =>
    show win0_3.index t 1 * 512 + 1 * l.val = t.val % 28 * 512 + l.val
    rw [(downWindow_index t).2]; omega

end Cert.KernelIdeal.Windows

end
-- ==== Proof.Accumulate.lean ====
/-
  The accumulator after every grid point.

  Points are numbered `t = 28·i + j`.  Within row block `i` the accumulator is reset at `j = 0` and then grows by one
  block sum per point, so after point `t` its entry `(p, q)` is the sum of the first `j + 1` block sums of the result entry
  `(256·i + p, q)`; after `j = 27` that is the result entry itself, and the point copies it into the output block.
-/
import proofs.«103071_j58360015618262_1_alg».proof.Proof.CaseValues
import proofs.«103071_j58360015618262_1_alg».proof.Proof.PointProduct
import proofs.«103071_j58360015618262_1_alg».proof.Proof.Windows

noncomputable section

open Idealize.ShloMosaic Idealize.ShloMosaic.TcCoe Idealize.SL.Sem Idealize.ShloMosaic.ValueIdx

namespace Cert.KernelIdeal.Accumulate

open Cert.KernelIdeal Cert.KernelIdeal.Gen Cert.GatedSum Cert.KernelIdeal.Windows Cert.KernelIdeal.PointProduct
  Cert.KernelIdeal.CaseValues

variable (m : (ℓ : Loc nD τ sig) → Buf (Elt Ideal) ℓ)

/-- The four argument arrays on core `c`. -/
abbrev xa (c : Dev nD) : Sx.Idx → EReal := m ((c : Thread nD τ).loc main_arg0)
abbrev ga (c : Dev nD) : Sw.Idx → EReal := m ((c : Thread nD τ).loc main_arg1)
abbrev ua (c : Dev nD) : Sw.Idx → EReal := m ((c : Thread nD τ).loc main_arg2)
abbrev da (c : Dev nD) : Sd.Idx → EReal := m ((c : Thread nD τ).loc main_arg3)

/-- What point `t` adds to entry `(p, q)` is block sum `t mod 28` of the result entry `(rowOf t p, q)`. -/
theorem term_eq (c : Dev nD) (t : Fin cfg0.N) (p : Fin 256) (q : Fin 4096) :
    blockTerm (rowBlk m c t) (gateBlk m c t) (upBlk m c t) (downBlk m c t) p q = blockSumN (xa m c) (ga m c) (ua m c) (da m c) (rowOf t p) q (t.val % 28) := by
  unfold blockSumN
  rw [dif_pos (Nat.mod_lt _ (by norm_num))]
  unfold blockTerm blockSum gated
  refine Finset.sum_congr rfl fun l _ => ?_
  have hg : blockProj (rowBlk m c t) (gateBlk m c t) p l = proj (xa m c) (ga m c) (rowOf t p) (hid (hidBlock t) l) := by
    unfold blockProj proj
    exact Finset.sum_congr rfl fun k _ => congrArg₂ (· * ·) (rowBlock_apply m c t p k) (gateBlock_apply m c t l k)
  have hu : blockProj (rowBlk m c t) (upBlk m c t) p l = proj (xa m c) (ua m c) (rowOf t p) (hid (hidBlock t) l) := by
    unfold blockProj proj
    exact Finset.sum_congr rfl fun k _ => congrArg₂ (· * ·) (rowBlock_apply m c t p k) (upBlock_apply m c t l k)
  rw [hg, hu, downBlock_apply m c t q l]
  rfl

/-- A point that resets leaves its own term. -/
theorem step_first (c : Dev nD) (t : Fin cfg0.N) (h0 : t.val % 28 = 0) (p : Fin 256) (q : Fin 4096) :
    ((outsAt0 m c t.val t.isLt).2 : Vec Ideal S256x4096 .f32) (ix2 p q) = blockSumN (xa m c) (ga m c) (ua m c) (da m c) (rowOf t p) q 0 := by
  have h1 : ¬t.val % 28 = 27 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (rowBlk m c t) (gateBlk m c t) (upBlk m c t) (downBlk m c t)) (ix2 p q)).trans ?_
  refine (stored_apply (rowBlk m c t) (gateBlk m c t) (upBlk m c t) (downBlk m c t) (k0_pay1 (F := Ideal)) p q).trans ?_
  rw [zero_apply, zero_add, term_eq, h0]

/-- A point that does not reset adds its term to what the point before left. -/
theorem step_next (c : Dev nD) (t : Fin cfg0.N) (h0 : ¬t.val % 28 = 0) (p : Fin 256) (q : Fin 4096) :
    ((outsAt0 m c t.val t.isLt).2 : Vec Ideal S256x4096 .f32) (ix2 p q)
      = ((outsAt0 m c (t.val - 1) (Nat.lt_of_le_of_lt (Nat.sub_le _ _) t.isLt)).2 : Vec Ideal S256x4096 .f32) (ix2 p q)
        + blockSumN (xa m c) (ga m c) (ua m c) (da m c) (rowOf t p) q (t.val % 28) := by
  by_cases h1 : t.val % 28 = 27
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (rowBlk m c t) (gateBlk m c t) (upBlk m c t) (downBlk m c t)
      (outsAt0 m c (t.val - 1) (Nat.lt_of_le_of_lt (Nat.sub_le _ _) t.isLt)).2) (ix2 p q)).trans ?_
    refine (stored_apply (rowBlk m c t) (gateBlk m c t) (upBlk m c t) (downBlk m c t) _ p q).trans ?_
    rw [term_eq]
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (rowBlk m c t) (gateBlk m c t) (upBlk m c t) (downBlk m c t)
      (outsAt0 m c (t.val - 1) (Nat.lt_of_le_of_lt (Nat.sub_le _ _) t.isLt)).2) (ix2 p q)).trans ?_
    refine (stored_apply (rowBlk m c t) (gateBlk m c t) (upBlk m c t) (downBlk m c t) _ p q).trans ?_
    rw [term_eq]

/-- After point `n` the accumulator holds the sum of the first `n mod 28 + 1` block sums of its row block's entries. -/
theorem acc_eq (c : Dev nD) : ∀ (n : ℕ) (h : n < cfg0.N) (p : Fin 256) (q : Fin 4096),
    ((outsAt0 m c n h).2 : Vec Ideal S256x4096 .f32) (ix2 p q)
      = partialSum (xa m c) (ga m c) (ua m c) (da m c) (rowOf ⟨n, h⟩ p) q (n % 28 + 1)
  | 0, h, p, q => by
    rw [step_first m c ⟨0, h⟩ rfl p q]
    exact (partialSum_one (xa m c) (ga m c) (ua m c) (da m c) _ q).symm
  | n + 1, h, p, q => by
    by_cases h0 : (n + 1) % 28 = 0
    · rw [step_first m c ⟨n + 1, h⟩ h0 p q, h0]
      exact (partialSum_one (xa m c) (ga m c) (ua m c) (da m c) _ q).symm
    · rw [step_next m c ⟨n + 1, h⟩ h0 p q]
      show ((outsAt0 m c n _).2 : Vec Ideal S256x4096 .f32) (ix2 p q) + _ = _
      rw [acc_eq c n (Nat.lt_of_succ_lt h) p q]
      have hrow : rowOf ⟨n, Nat.lt_of_succ_lt h⟩ p = rowOf ⟨n + 1, h⟩ p := Fin.ext (by
        show 256 * (n / 28) + p.val = 256 * ((n + 1) / 28) + p.val
        omega)
      have hmod : (n + 1) % 28 = n % 28 + 1 := by omega
      rw [hrow, hmod, ← partialSum_succ]

/-- At the last point of a row block the output block receives the finished entries. -/
theorem out_eq (c : Dev nD) (t : Fin cfg0.N) (h1 : t.val % 28 = 27) (p : Fin 256) (q : Fin 4096) :
    ((outsAt0 m c t.val t.isLt).1 : Vec Ideal S256x4096 .f32) (ix2 p q) = rowOut (xa m c) (ga m c) (ua m c) (da m c) (rowOf t p) q := by
  have h0 : ¬t.val % 28 = 0 := by omega
  have e : ((outsAt0 m c t.val t.isLt).1 : Vec Ideal S256x4096 .f32) = (outsAt0 m c t.val t.isLt).2 := by
    rw [outsAt0_C m c t h0 h1]
    dsimp only
    exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (rowBlk m c t) (gateBlk m c t) (upBlk m c t) (downBlk m c t)
        (outsAt0 m c (t.val - 1) (Nat.lt_of_le_of_lt (Nat.sub_le _ _) t.isLt)).2).trans
      (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (rowBlk m c t) (gateBlk m c t) (upBlk m c t) (downBlk m c t)
        (outsAt0 m c (t.val - 1) (Nat.lt_of_le_of_lt (Nat.sub_le _ _) t.isLt)).2).symm
  rw [e, acc_eq m c t.val t.isLt p q, h1]
  exact partialSum_full (xa m c) (ga m c) (ua m c) (da m c) _ q

end Cert.KernelIdeal.Accumulate

end
-- ==== Proof.KernelValue.lean ====
/-
  The kernel's result array.

  The output window is written back only at the last point of each row block, `t = 28·i + 27`, and what it writes is
  rows `256·i … 256·i + 255` of the 4096 × 4096 array whose entry `(r, h)` is the gated sum's `rowOut r h`.  The sixteen
  row blocks tile that array, so after the region it holds exactly those entries.  The host then un-flattens it to
  2 × 2048 × 4096, entry `(b, s, h)` from row `2048·b + s`: the gated sum of the four argument arrays.
-/
import proofs.«103071_j58360015618262_1_alg».proof.Proof.Accumulate
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.GatedSum Cert.KernelIdeal.Windows Cert.KernelIdeal.Accumulate

variable (m : (ℓ : Loc nD τ sig) → Buf (Elt Ideal) ℓ) (ρ : Dev nD → PrngReg)

/-- The 4096 × 4096 array of finished entries. -/
def flat (c : Dev nD) : Buf (Elt Ideal) ((c : Thread nD τ).loc main_v5) := fun i =>
  rowOut (xa m c) (ga m c) (ua m c) (da m c) ⟨(i 0).val, (i 0).isLt⟩ ⟨(i 1).val, (i 1).isLt⟩

/-- What a writing point writes back is its row block of that array. -/
theorem flushed_eq (c : Dev nD) (t : Fin cfg0.N) (hf : (cfg0.win 4).flush t = true) :
    (dats m 0 c).flushed 4 t = ((cfg0.win 4).blk t).view.read (Elt Ideal) (flat m c) := by
  have h1 : t.val % 28 = 27 := (flush0_4 t).mp hf
  show (cfg0.win 4).cut (grid0.coords t) ((dats m 0 c).after 4 t) = _
  rw [after0_4]
  funext j
  obtain ⟨p, q, rfl⟩ : ∃ (p : Fin 256) (q : Fin 4096), j = ix2 p q := ⟨j 0, j 1, eq_ix2 j⟩
  show ((outsAt0 m c t.val t.isLt).1 : Vec Ideal S256x4096 .f32) (ix2 p q) = flat m c (((cfg0.win 4).blk t).view.emb (ix2 p q))
  rw [out_eq m c t h1 p q]
  unfold flat
  refine congrArg₂ (rowOut (xa m c) (ga m c) (ua m c) (da m c)) (Fin.ext ?_) (Fin.ext ?_)
  · show 256 * (t.val / 28) + p.val = win0_4.index t 0 * 256 + 1 * p.val
    rw [(outWindow_index t).1]; omega
  · show q.val = win0_4.index t 1 * 4096 + 1 * q.val
    rw [(outWindow_index t).2]; omega

/-- An index of the array is in point `t`'s block iff each coordinate is in the block's range on its axis. -/
theorem mem_block (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v5).slice (win0_4.rect t)).set ↔ _
  rw [View.set_slice_whole, Rect.mem_set_unit]
  exact Iff.rfl

/-- Every entry lies in the block some writing point writes back: row `r` in that of point `28·(r / 256) + 27`. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 448 := N_0
  let t : Fin cfg0.N := ⟨28 * ((i 0).val / 256) + 27, by rw [hN]; omega⟩
  have ht : t.val = 28 * ((i 0).val / 256) + 27 := rfl
  refine ⟨t, (flush0_4 t).mpr (by rw [ht]; omega), ?_⟩
  rw [mem_block]
  intro a
  match a with
  | ⟨0, _⟩ =>
    show win0_4.index t 0 * 256 ≤ (i 0).val ∧ (i 0).val < win0_4.index t 0 * 256 + 256
    rw [(outWindow_index t).1, ht]; omega
  | ⟨1, _⟩ =>
    show win0_4.index t 1 * 4096 ≤ (i 1).val ∧ (i 1).val < win0_4.index t 1 * 4096 + 4096
    rw [(outWindow_index t).2]; omega

/-- After the region the output array holds the finished entries. -/
theorem final (c : Dev nD) : (dats m 0 c).arrAt 4 cfg0.N = flat m c :=
  (dats m 0 c).arrAt_eq_of_cover 4 (flat m c) (flushed_eq m c) covered

/-- The un-flattened array is the gated sum of the argument arrays. -/
theorem unflatten_eq (c : Dev nD) :
    shapeCast S2x2048x4096 (flat m c) shapeCasts_S4096x4096_S2x2048x4096 = out (xa m c) (ga m c) (ua m c) (da m c) := by
  funext j
  obtain ⟨b, s, h, rfl⟩ : ∃ (b : Fin 2) (s : Fin 2048) (h : Fin 4096), j = ix3 b s h := ⟨j 0, j 1, j 2, eq_ix3 j⟩
  have hb := b.isLt
  have hs := s.isLt
  refine (shapeCast_apply (s := S4096x4096) (t := S2x2048x4096) (flat m c) _ (ix3 b s h)
    (ix2 (⟨2048 * b.val + s.val, by omega⟩ : Fin 4096) h) ?_).trans ?_
  · change ((⟨2, ![4096, 4096]⟩ : Shape).rowMajor _).val = ((⟨3, ![2, 2048, 4096]⟩ : Shape).rowMajor _).val
    rw [Shape.rowMajor_val_three, Shape.rowMajor_val_two]
    show (2048 * b.val + s.val) * 4096 + h.val = (b.val * 2048 + s.val) * 4096 + h.val
    omega
  · rfl

/-- What the host's un-flattening after the region leaves in the result buffer. -/
theorem tail_eq (c : Dev nD) :
    Pipeline.afterTail₀ cfgs (dats m) 0 (V0 m) [hostOps1] c main_v6 = out (xa m c) (ga m c) (ua m c) (da m c) := by
  rw [← unflatten_eq]
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = flat m c :=
    (Pipeline.withArrays_arr spec0 launch0.win.arr_inj c _ _ 4).trans (final m c)
  rw [e]
  rfl

/-- The run, read: the result buffer ends at the gated sum of the argument arrays, which end unchanged. -/
theorem run : θ_run defs (onTc (τ := τ) (main (F := Ideal))) ⟨m, fun _ => 0, ρ⟩ fun r => ∀ c : Dev nD,
      r.2.mem ((c : Thread nD τ).loc main_v6) = out (xa m c) (ga m c) (ua m c) (da m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.RefValue.lean ====
/-
  The reference's result, entry by entry, is the gated sum.

  The reference contracts `x` with each up-projection weight over the 4096 shared coordinates, forms `g · (1 / (1 + e^(-g)))`
  — which is `g · σ(g)` by the very definition of the logistic function on the extended reals — times `u`, and contracts
  the result with the down-projection's weights over all 14336 hidden coordinates at once.  Entry `(b, s, h)` reads row
  `2048·b + s` of the flattened `x`.
-/
import proofs.«103071_j58360015618262_1_alg».proof.Proof.Gen.ReferenceIdeal.Read
import proofs.«103071_j58360015618262_1_alg».proof.Proof.GatedSum
import Idealize.ShloMosaic.PureOps.IdealRules

noncomputable section

open Idealize.ShloMosaic Idealize.ShloMosaic.ValueIdx

namespace Cert.ReferenceIdeal.RefValue

open Cert.ReferenceIdeal Cert.ReferenceIdeal.Read Cert.GatedSum

/-- The literal the reference's logistic expansion uses is the number one. -/
theorem one_lit : Ideal.ofBits .f32 0x3F800000#32 = 1 := IdealRules.sign_bit.ideal_onePat .f32

/-- Row `2048·b + s` of the flattened `x` is row `(b, s)`. -/
theorem xRow_flat (x0 : Sx.Idx → EReal) (b : Fin 2) (s : Fin 2048) (k : Fin 4096) :
    xRow x0 ⟨2048 * b.val + s.val, by have := b.isLt; have := s.isLt; omega⟩ k = x0 (ix3 b s k) := by
  unfold xRow
  refine congrArg x0 (funext fun a => Fin.ext ?_)
  match a with
  | ⟨0, _⟩ => show (2048 * b.val + s.val) / 2048 = b.val; have := s.isLt; omega
  | ⟨1, _⟩ => show (2048 * b.val + s.val) % 2048 = s.val; have := s.isLt; omega
  | ⟨2, _⟩ => rfl

/-- One up-projection at a hidden coordinate, as the reference reads it. -/
theorem proj_ref (x0 : Sx.Idx → EReal) (w : Sw.Idx → EReal) (j : S2x2048x14336.Idx) :
    (∑ k : Fin 4096, x0 (lidx_main_v0 j k) * w (ridx_main_v0 j k))
      = proj x0 w ⟨2048 * (j 0).val + (j 1).val, by
          have h0 : (j 0).val < 2 := (j 0).isLt
          have h1 : (j 1).val < 2048 := (j 1).isLt
          omega⟩ ⟨(j 2).val, (j 2).isLt⟩ := by
  unfold proj
  refine Finset.sum_congr rfl fun k _ => ?_
  have el : lidx_main_v0 j k = ix3 (⟨(j 0).val, (j 0).isLt⟩ : Fin 2) (⟨(j 1).val, (j 1).isLt⟩ : Fin 2048) k :=
    funext fun a => Fin.ext (by match a with | ⟨0, _⟩ => rfl | ⟨1, _⟩ => rfl | ⟨2, _⟩ => rfl)
  have er : ridx_main_v0 j k = ix2 (⟨(j 2).val, (j 2).isLt⟩ : Fin 14336) k :=
    funext fun a => Fin.ext (by match a with | ⟨0, _⟩ => rfl | ⟨1, _⟩ => rfl)
  rw [el, er, ← xRow_flat x0 ⟨(j 0).val, (j 0).isLt⟩ ⟨(j 1).val, (j 1).isLt⟩ k]

/-- The reference's result is the gated sum of its four arguments. -/
theorem result_eq (x0 : Sx.Idx → EReal) (x1 x2 : Sw.Idx → EReal) (x3 : Sd.Idx → EReal) :
    val_main_v4 (F := Ideal) x0 x1 x2 x3 = out x0 x1 x2 x3 := by
  funext i
  rw [val_main_v4_apply]
  unfold out rowOut
  refine Finset.sum_congr rfl fun k _ => ?_
  have er : ridx_main_v4 i k = ix2 (⟨(i 2).val, (i 2).isLt⟩ : Fin 4096) k :=
    funext fun a => Fin.ext (by match a with | ⟨0, _⟩ => rfl | ⟨1, _⟩ => rfl)
  rw [er]
  refine congrArg (· * x3 (ix2 (⟨(i 2).val, (i 2).isLt⟩ : Fin 4096) k)) ?_
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply, proj_ref, proj_ref]
  simp only [Ideal.ofBits_def, one_lit]
  rfl

end Cert.ReferenceIdeal.RefValue

end
-- ==== Proof.lean ====
/-
  The certificate's claim for the gated projection: a row block of `x` is projected through two weight arrays, the
  first projection passes through `g ↦ g · σ(g)` (σ the logistic function) and multiplies the second, and the product
  is projected back through a third weight array.

  The kernel walks a 16 × 28 grid: 16 blocks of 256 rows, and for each of them 28 blocks of 512 hidden coordinates,
  adding one block's contribution to an accumulator that it resets at the first block and copies out after the last.
  The reference contracts over all 14336 hidden coordinates at once.  Over the extended reals both are the same sum:
  a sum over 14336 = 28 · 512 terms is the sum of its 28 consecutive partial sums, which uses only that addition is
  commutative and associative (so no entry has to be finite); the changes to the 16-bit format are the identity; a
  matrix product started from the zero block is the plain sum of products; and the logistic function is, by its
  definition there, `1 / (1 + e^(-g))`, the expression the reference spells out.

  The three frame claims are the generated frames (the reference's is its generated run with the result dropped); the
  idealized kernel is the kernel's own text read over the extended reals, so `preserves` has nothing to state;
  `algebraic` puts the two runs side by side with the gated sum (Proof/GatedSum.lean) of the argument arrays as the
  common result.
-/
import proofs.«103071_j58360015618262_1_alg».proof.Defs
import proofs.«103071_j58360015618262_1_alg».proof.Proof.Gen.Kernel
import proofs.«103071_j58360015618262_1_alg».proof.Proof.Gen.Kernel.Frame
import proofs.«103071_j58360015618262_1_alg».proof.Proof.Gen.KernelIdeal
import proofs.«103071_j58360015618262_1_alg».proof.Proof.Gen.KernelIdeal.Frame
import proofs.«103071_j58360015618262_1_alg».proof.Proof.Gen.ReferenceIdeal
import proofs.«103071_j58360015618262_1_alg».proof.Proof.Gen.ReferenceIdeal.Run
import proofs.«103071_j58360015618262_1_alg».proof.Proof.Gen.ReferenceIdeal.Read
import proofs.«103071_j58360015618262_1_alg».proof.Proof.Gen.Pre_finite_inputs
import proofs.«103071_j58360015618262_1_alg».proof.Proof.KernelValue
import proofs.«103071_j58360015618262_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gated sum of the (agreeing) argument arrays in their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
